-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S3x8x2048x2048 : Shape := ⟨4, ![3, 8, 2048, 2048]⟩
abbrev S1x512x3 : Shape := ⟨3, ![1, 512, 3]⟩
abbrev S3x1x512x512 : Shape := ⟨4, ![3, 1, 512, 512]⟩
abbrev S512x3 : Shape := ⟨2, ![512, 3]⟩
abbrev S512x1 : Shape := ⟨2, ![512, 1]⟩
abbrev S1x512 : Shape := ⟨2, ![1, 512]⟩
abbrev S512x512 : Shape := ⟨2, ![512, 512]⟩
abbrev S1x1x512x512 : Shape := ⟨4, ![1, 1, 512, 512]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x3, .f32⟩
  | .hbm, ⟨1, _⟩ => ⟨S3x8x2048x2048, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S3x1x512x512, .f32⟩
  | .local _ .vmem, ⟨5, _⟩ => ⟨S3x1x512x512, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S3x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  transposes_S512x1_p1_0_S1x512 : S512x1.Transposes [1, 0] S1x512
  broadcasts_S512x1_S512x512 : S512x1.Broadcasts S512x512
  broadcasts_S1x512_S512x512 : S1x512.Broadcasts S512x512
  inb_S3x1x512x512_S1x1x512x512_0_0_0_0 : ∀ a, (![0, 0, 0, 0] : Fin 4 → Nat) a + S1x1x512x512.size a ≤ S3x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S3x1x512x512_S1x1x512x512_1_0_0_0 : ∀ a, (![1, 0, 0, 0] : Fin 4 → Nat) a + S1x1x512x512.size a ≤ S3x1x512x512.size a
  inb_S3x1x512x512_S1x1x512x512_2_0_0_0 : ∀ a, (![2, 0, 0, 0] : Fin 4 → Nat) a + S1x1x512x512.size a ≤ S3x1x512x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x2048x3.size a
  hwx0_0 : ∀ i : grid0.Coords, EltTy.bits .f32 = 32 ∨ (Rect.block (s := S8x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x2048x3.size a
  hwx0_1 : ∀ i : grid0.Coords, EltTy.bits .f32 = 32 ∨ (Rect.block (s := S8x2048x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1x512x512.size a ≤ S3x8x2048x2048.size a
  hwx0_2 : ∀ i : grid0.Coords, EltTy.bits .f32 = 32 ∨ (Rect.block (s := S3x8x2048x2048) S3x1x512x512.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S1x8x2048x2048 : Shape := ⟨4, ![1, 8, 2048, 2048]⟩
abbrev S3x8x2048x2048 : Shape := ⟨4, ![3, 8, 2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x1x3, .f32⟩
  | .hbm, ⟨2, _⟩ => ⟨S8x1x2048x3, .f32⟩
  | .hbm, ⟨3, _⟩ => ⟨S8x2048x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S_, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .i1⟩
  | .hbm, ⟨16, _⟩ => ⟨S_, .f32⟩
  | .hbm, ⟨17, _⟩ => ⟨S8x2048x2048, .f32⟩
  | .hbm, ⟨18, _⟩ => ⟨S8x2048x2048, .i1⟩
  | .hbm, ⟨19, _⟩ => ⟨S8x2048x2048, .i1⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .i1⟩
  | .hbm, ⟨27, _⟩ => ⟨S_, .f32⟩
  | .hbm, ⟨28, _⟩ => ⟨S8x2048x2048, .f32⟩
  | .hbm, ⟨29, _⟩ => ⟨S8x2048x2048, .i1⟩
  | .hbm, ⟨30, _⟩ => ⟨S8x2048x2048, .i1⟩
  | .hbm, ⟨31, _⟩ => ⟨S_, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .i1⟩
  | .hbm, ⟨38, _⟩ => ⟨S_, .f32⟩
  | .hbm, ⟨39, _⟩ => ⟨S8x2048x2048, .f32⟩
  | .hbm, ⟨40, _⟩ => ⟨S8x2048x2048, .i1⟩
  | .hbm, ⟨41, _⟩ => ⟨S8x2048x2048, .i1⟩
  | .hbm, ⟨42, _⟩ => ⟨S_, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S1x8x2048x2048, .f32⟩
  | .hbm, ⟨47, _⟩ => ⟨S1x8x2048x2048, .f32⟩
  | .hbm, ⟨48, _⟩ => ⟨S1x8x2048x2048, .f32⟩
  | .hbm, ⟨49, _⟩ => ⟨S3x8x2048x2048, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_call2_v0 : Ref sig .tc := ⟨.hbm, 43, rfl⟩
abbrev main_call2_v1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  bcast_S_S8x2048x2048 : S_.BroadcastsInDim S8x2048x2048 (![] : Fin 0 → Fin S8x2048x2048.rank)
  bcast_S8x2048x2048_S1x8x2048x2048_1_2_3 : S8x2048x2048.BroadcastsInDim S1x8x2048x2048 (![1, 2, 3] : Fin 3 → Fin S1x8x2048x2048.rank)
  concatenates_S1x8x2048x2048_S1x8x2048x2048_S1x8x2048x2048_S3x8x2048x2048_d0 : Shape.Concatenates [S1x8x2048x2048, S1x8x2048x2048, S1x8x2048x2048] S3x8x2048x2048 0

variable [Facts₀]

class Facts : Prop extends Facts₀ where

variable [Facts]
-- ==== Proof.BitsTileBody.lean ====
/-
  One grid point of the pairwise-distance kernel, and what the pipeline is told about it.

  The kernel runs on a grid of 8 x 4 x 4 points (batch b, row tile i, column tile j). At a point it is handed three
  staging buffers: a [1, 512, 3] block of the positions for the row tile (window 0, block index (b, i, 0)), a
  [1, 512, 3] block of the SAME positions array for the column tile (window 1, block index (b, j, 0)), and a
  [3, 1, 512, 512] block of the result (window 2, block index (0, b, i, j)). The body loads the two position blocks,
  forms the 512 x 512 tile of distances once, and stores it three times, each time masked by another radius, into the
  three [1, 1, 512, 512] slabs of the result block. Before each store it also loads the slab it is about to overwrite;
  the loaded value is used by nothing.

  This module states, for any float instance:
  * the arrays as the region finds them (the launch contents: the program is the region alone) and the shape of the
    program up to the region;
  * each window's block of its array at a point;
  * the tile the body leaves in the result's staging buffer, as a function of the two position blocks: the three slabs
    laid over one another, the last store first. The three slabs tile the block, so they cover it and nothing of the
    buffer's earlier contents survives;
  * the body's triple: run on whole staging buffers holding two position blocks and anything in the third, the body
    ends with the inputs as they were and the third at that tile;
  * the pipeline's proof data. Both input windows read one array, so its full share cannot be held twice: window 0
    holds the left half and window 1 the right half of it, which is all a fetch needs; the result is held whole.
    The kernel has no scratch, semaphore or transfer of its own, so the invariant between points is only the core's
    scoped buffers that are no staging buffer (there are none) at some contents;
  * the body obligation at every point. An input window's buffer holds its block whether or not the pipeline fetched
    at that point: unfetched means the block index did not move (window 0's does not move along j).
-/
import proofs.«151665_j41120016892412_1_alg».proof.Proof.Gen.Kernel.Launch
import proofs.«151665_j41120016892412_1_alg».proof.Proof.Gen.Kernel.Skeleton
import proofs.«151665_j41120016892412_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The program up to the region -/

/-- Core `c`'s TensorCore buffers when the region is entered: as launched, since the program is the region alone. -/
abbrev atEntry (c : Dev nD) (b : Ref sig .tc) : Buf (Elt F) ((c : Thread nD τ).loc b) := m ((c : Thread nD τ).loc b)

/-- The program is its one region, entered with the launch contents. -/
theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The row tile's buffer holds its block of the positions at every point, fetched there or not, for any proof data
    whose array is the entry contents and whose body leaves the block in place. -/
theorem rowBlock_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The column tile's buffer likewise. -/
theorem colBlock_found {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's rectangles -/

/-- A position block whole: what both loads read. -/
abbrev posRect : Rect S1x512x3 := Rect.unit (s := S1x512x3) ![0, 0, 0] S1x512x3.size inb_S1x512x3_S1x512x3_0_0_0
/-- The result block's slab of the first radius, -/
abbrev slab0 : Rect S3x1x512x512 := Rect.unit (s := S3x1x512x512) ![0, 0, 0, 0] S1x1x512x512.size inb_S3x1x512x512_S1x1x512x512_0_0_0_0
/-- of the second, -/
abbrev slab1 : Rect S3x1x512x512 := Rect.unit (s := S3x1x512x512) ![1, 0, 0, 0] S1x1x512x512.size inb_S3x1x512x512_S1x1x512x512_1_0_0_0
/-- and of the third. -/
abbrev slab2 : Rect S3x1x512x512 := Rect.unit (s := S3x1x512x512) ![2, 0, 0, 0] S1x1x512x512.size inb_S3x1x512x512_S1x1x512x512_2_0_0_0

/-! ## What the body leaves in the result's buffer -/

/-- The result block after the body, from the row tile's and the column tile's position blocks: the three masked
    distance tiles, each in its slab, the last store first. -/
def outTile (x0 : Vec F S1x512x3 .f32) (x1 : Vec F S1x512x3 .f32) : Vec F S3x1x512x512 .f32 :=
  View.canon [⟨slab2, k0_pay2 (k0_pay3 (View.ld x0 posRect) (View.ld x1 posRect))⟩,
    ⟨slab1, k0_pay1 (k0_pay3 (View.ld x0 posRect) (View.ld x1 posRect)) (k0_pay5 (F := F))⟩,
    ⟨slab0, k0_pay4 (View.ld x0 posRect) (View.ld x1 posRect)⟩]

/-- The three slabs tile the block, so every index of it lies in one of them. -/
theorem slabs_cover (p0 p1 p2 : Vec F S1x1x512x512 .f32) (y : S3x1x512x512.Idx) :
    ∃ pc ∈ ([⟨slab2, p2⟩, ⟨slab1, p1⟩, ⟨slab0, p0⟩] : List (View.Piece (Elt F) S3x1x512x512 .f32)), y ∈ pc.1.set :=
  View.cover_of_tiled [⟨slab2, p2⟩, ⟨slab1, p1⟩, ⟨slab0, p0⟩] S1x1x512x512.size (by rfl) y

/-! ## The body's triple -/

set_option maxHeartbeats 1000000 in
/-- The body on whole staging buffers, the position blocks' at read contents `x0`, `x1` and the result's at anything,
    runs to a continuation that holds the position blocks' as they were and the result's at `outTile x0 x1`. -/
theorem body_runs (c : Dev nD) (E : Set ℕ) (i : grid0.Coords) (arg3 : Memref sig .tc .vmem S1x512x3 .f32) (harg3 : arg3.IsWhole)
    (arg4 : Memref sig .tc .vmem S1x512x3 .f32) (harg4 : arg4.IsWhole) (arg5 : Memref sig .tc .vmem S3x1x512x512 .f32) (harg5 : arg5.IsWhole)
    (x0 : Vec F S1x512x3 .f32) (x1 : Vec F S1x512x3 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outTile x0 x1)) -∗ K ⟨⟩))
      ⊢ wp frame (wpE (defs₀ (F := F)) Variants.none c none) E (cc0__dist_kernel i arg3 harg3 arg4 harg4 arg5 harg5) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slabs_cover _ _ _)

/-! ## The pipeline's proof data -/

/-- The proof data of the one pipeline on core `c`: the arrays as the region finds them; after the body at point `t`
    each position window's buffer at its block and the result's at `outTile` of the two blocks; the invariant the
    scoped buffers that are no staging buffer; the positions array held by the row window at the left half of its
    share and by the column window at the right half; nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => outTile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = atEntry m c (Pipeline.arrRef spec0 w) := by
  dsimp only [dats]

theorem after_row (c : Dev nD) (t : Fin cfg0.N) : (dats m 0 c).after 0 t = blockAt m c 0 t := by dsimp only [dats]
theorem after_col (c : Dev nD) (t : Fin cfg0.N) : (dats m 0 c).after 1 t = blockAt m c 1 t := by dsimp only [dats]
theorem after_out (c : Dev nD) (t : Fin cfg0.N) : (dats m 0 c).after 2 t = outTile (blockAt m c 0 t) (blockAt m c 1 t) := by dsimp only [dats]

theorem before_row (c : Dev nD) (t : Fin cfg0.N) (d) : (dats m 0 c).before 0 t d = blockAt m c 0 t :=
  rowBlock_found m (dats m 0 c) (A_eq m c 0) (after_row m c) t d
theorem before_col (c : Dev nD) (t : Fin cfg0.N) (d) : (dats m 0 c).before 1 t d = blockAt m c 1 t :=
  colBlock_found m (dats m 0 c) (A_eq m c 1) (after_col m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the position buffers hold their blocks, so `body_runs` applies; the invariant and what the
    core owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_row, before_col]
  rw [show (dats m 0 c).Φ t.succ = (dats m 0 c).Φ t.castSucc from rfl,
    show (dats m 0 c).owesAt () t.succ = (dats m 0 c).owesAt () t.castSucc from rfl,
    after_row, after_col, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact body_at_point m c t

end Cert.Kernel.Tile

end
-- ==== Proof.BitsLaunch.lean ====
/-
  The launch of the pairwise-distance kernel: from the body obligation to the run of the whole program.

  The program is one kernel region on one TensorCore. The library's launch theorem for a kernel with no semaphore of
  its own and with input windows that may read ONE array takes the decided layout of the windows, the proof data with
  its body obligation, the program's shape up to the region, and says how the buffers behind the windows' arrays, each
  whole at the full share as the launch finds them, become the proof data's arrays. Here there are two such buffers:
  the positions, which the row window and the column window both read, and the result. The positions' full share is
  the composite of its left and right halves, so the one points-to splits into the two the windows hold; the result's
  passes as it is. Nothing else is routed: the kernel has no scratch and the core no other unscoped buffer.

  The run's post reads every window's array at what the library computes from the proof data: an input's array at its
  entry contents, the result's at the entry contents overwritten by what each point wrote back. The frame is that
  post at the positions.
-/
import proofs.«151665_j41120016892412_1_alg».proof.Proof.BitsTileBody

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The positions' share dealt to the two windows that read them -/

/-- The two buffers behind the windows' arrays, whole at the full share at the entry contents, are the proof data's
    arrays at entry: the positions split into the halves the row and the column window hold, the result whole. -/
theorem arrays_dealt (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  unfold Pipeline.arrBufs
  rw [bigSep_eq_bigSepL_of_eq [main_arg0, main_v0] (by decide) (by decide)]
  unfold Dat.arrays
  rw [bigSep_W0]
  rw [(arr_whole0 0).set_eq_univ, (arr_whole0 2).set_eq_univ]
  show iprop((((c.tc : Thread nD τ).loc main_arg0) ↦{fullShare} atEntry m c main_arg0) ∗ (((c.tc : Thread nD τ).loc main_v0) ↦{fullShare} atEntry m c main_v0))
    ⊢ (iprop((((c.tc : Thread nD τ).loc main_arg0) ↦{fullShare.left} atEntry m c main_arg0)
        ∗ (((c.tc : Thread nD τ).loc main_arg0) ↦{fullShare.right} atEntry m c main_arg0)
        ∗ (((c.tc : Thread nD τ).loc main_v0) ↦{fullShare} atEntry m c main_v0)) : sProp 𝕄)
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-! ## The run -/

/-- The invariant between points is the scoped buffers that are no staging buffer, at every point. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

-- the launch theorem's implicit arguments are found by unifying its conclusion with this one, which takes unfolding
-- plain definitions in a metavariable's type
set_option backward.isDefEq.respectTransparency.types false in
/-- From any memory with zero counters, every weakly fair execution of the program terminates without a fault, and in
    every final state each window's array holds what the library computes from the proof data: the positions their
    entry contents, the result the entry contents overwritten by every point's tile. -/
theorem region_runs :
    θ_run defs (onTc (τ := τ) (main (F := F))) (s₀ m ρ)
      (fun r => ∀ c : Dev nD, ∀ w : Fin cfg0.W,
        r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := atEntry m) (hmain := main_is_region m Variants.none)
    (hsplit := arrays_dealt m)
    (X := fun _ => (BI.emp : sProp 𝕄)) (Y := fun _ => (BI.emp : sProp 𝕄))
    (Z := fun c => Pipeline.unscopedRest (Ix := Unit) (Name := ℕ) (U := UR sig nD τ) (Lvl := ℕ) spec0 c (atEntry m c))
    (hX := fun c => by
      iintro H
      isplitr; · iempintro
      iexact H)
    (hin := fun c => by
      rw [inv_eq]
      iintro ⟨-, H⟩
      iexact H)
    (hout := fun c => by
      rw [inv_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## The frame -/

/-- The positions end as they were launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (region_runs m ρ)

end Cert.Kernel.Tile

end
-- ==== Proof.IdealTileBody.lean ====
/-
  One grid point of the pairwise-distance kernel, and what the pipeline is told about it.

  The kernel runs on a grid of 8 x 4 x 4 points (batch b, row tile i, column tile j). At a point it is handed three
  staging buffers: a [1, 512, 3] block of the positions for the row tile (window 0, block index (b, i, 0)), a
  [1, 512, 3] block of the SAME positions array for the column tile (window 1, block index (b, j, 0)), and a
  [3, 1, 512, 512] block of the result (window 2, block index (0, b, i, j)). The body loads the two position blocks,
  forms the 512 x 512 tile of distances once, and stores it three times, each time masked by another radius, into the
  three [1, 1, 512, 512] slabs of the result block. Before each store it also loads the slab it is about to overwrite;
  the loaded value is used by nothing.

  This module states, for any float instance:
  * the arrays as the region finds them (the launch contents: the program is the region alone) and the shape of the
    program up to the region;
  * each window's block of its array at a point;
  * the tile the body leaves in the result's staging buffer, as a function of the two position blocks: the three slabs
    laid over one another, the last store first. The three slabs tile the block, so they cover it and nothing of the
    buffer's earlier contents survives;
  * the body's triple: run on whole staging buffers holding two position blocks and anything in the third, the body
    ends with the inputs as they were and the third at that tile;
  * the pipeline's proof data. Both input windows read one array, so its full share cannot be held twice: window 0
    holds the left half and window 1 the right half of it, which is all a fetch needs; the result is held whole.
    The kernel has no scratch, semaphore or transfer of its own, so the invariant between points is only the core's
    scoped buffers that are no staging buffer (there are none) at some contents;
  * the body obligation at every point. An input window's buffer holds its block whether or not the pipeline fetched
    at that point: unfetched means the block index did not move (window 0's does not move along j).
-/
import proofs.«151665_j41120016892412_1_alg».proof.Proof.Gen.KernelIdeal.Launch
import proofs.«151665_j41120016892412_1_alg».proof.Proof.Gen.KernelIdeal.Skeleton
import proofs.«151665_j41120016892412_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The program up to the region -/

/-- Core `c`'s TensorCore buffers when the region is entered: as launched, since the program is the region alone. -/
abbrev atEntry (c : Dev nD) (b : Ref sig .tc) : Buf (Elt F) ((c : Thread nD τ).loc b) := m ((c : Thread nD τ).loc b)

/-- The program is its one region, entered with the launch contents. -/
theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The row tile's buffer holds its block of the positions at every point, fetched there or not, for any proof data
    whose array is the entry contents and whose body leaves the block in place. -/
theorem rowBlock_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The column tile's buffer likewise. -/
theorem colBlock_found {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's rectangles -/

/-- A position block whole: what both loads read. -/
abbrev posRect : Rect S1x512x3 := Rect.unit (s := S1x512x3) ![0, 0, 0] S1x512x3.size inb_S1x512x3_S1x512x3_0_0_0
/-- The result block's slab of the first radius, -/
abbrev slab0 : Rect S3x1x512x512 := Rect.unit (s := S3x1x512x512) ![0, 0, 0, 0] S1x1x512x512.size inb_S3x1x512x512_S1x1x512x512_0_0_0_0
/-- of the second, -/
abbrev slab1 : Rect S3x1x512x512 := Rect.unit (s := S3x1x512x512) ![1, 0, 0, 0] S1x1x512x512.size inb_S3x1x512x512_S1x1x512x512_1_0_0_0
/-- and of the third. -/
abbrev slab2 : Rect S3x1x512x512 := Rect.unit (s := S3x1x512x512) ![2, 0, 0, 0] S1x1x512x512.size inb_S3x1x512x512_S1x1x512x512_2_0_0_0

/-! ## What the body leaves in the result's buffer -/

/-- The result block after the body, from the row tile's and the column tile's position blocks: the three masked
    distance tiles, each in its slab, the last store first. -/
def outTile (x0 : Vec F S1x512x3 .f32) (x1 : Vec F S1x512x3 .f32) : Vec F S3x1x512x512 .f32 :=
  View.canon [⟨slab2, k0_pay2 (k0_pay3 (View.ld x0 posRect) (View.ld x1 posRect))⟩,
    ⟨slab1, k0_pay1 (k0_pay3 (View.ld x0 posRect) (View.ld x1 posRect)) (k0_pay5 (F := F))⟩,
    ⟨slab0, k0_pay4 (View.ld x0 posRect) (View.ld x1 posRect)⟩]

/-- The three slabs tile the block, so every index of it lies in one of them. -/
theorem slabs_cover (p0 p1 p2 : Vec F S1x1x512x512 .f32) (y : S3x1x512x512.Idx) :
    ∃ pc ∈ ([⟨slab2, p2⟩, ⟨slab1, p1⟩, ⟨slab0, p0⟩] : List (View.Piece (Elt F) S3x1x512x512 .f32)), y ∈ pc.1.set :=
  View.cover_of_tiled [⟨slab2, p2⟩, ⟨slab1, p1⟩, ⟨slab0, p0⟩] S1x1x512x512.size (by rfl) y

/-! ## The body's triple -/

set_option maxHeartbeats 1000000 in
/-- The body on whole staging buffers, the position blocks' at read contents `x0`, `x1` and the result's at anything,
    runs to a continuation that holds the position blocks' as they were and the result's at `outTile x0 x1`. -/
theorem body_runs (c : Dev nD) (E : Set ℕ) (i : grid0.Coords) (arg3 : Memref sig .tc .vmem S1x512x3 .f32) (harg3 : arg3.IsWhole)
    (arg4 : Memref sig .tc .vmem S1x512x3 .f32) (harg4 : arg4.IsWhole) (arg5 : Memref sig .tc .vmem S3x1x512x512 .f32) (harg5 : arg5.IsWhole)
    (x0 : Vec F S1x512x3 .f32) (x1 : Vec F S1x512x3 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outTile x0 x1)) -∗ K ⟨⟩))
      ⊢ wp frame (wpE (defs₀ (F := F)) Variants.none c none) E (cc0__dist_kernel i arg3 harg3 arg4 harg4 arg5 harg5) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slabs_cover _ _ _)

/-! ## The pipeline's proof data -/

/-- The proof data of the one pipeline on core `c`: the arrays as the region finds them; after the body at point `t`
    each position window's buffer at its block and the result's at `outTile` of the two blocks; the invariant the
    scoped buffers that are no staging buffer; the positions array held by the row window at the left half of its
    share and by the column window at the right half; nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => outTile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = atEntry m c (Pipeline.arrRef spec0 w) := by
  dsimp only [dats]

theorem after_row (c : Dev nD) (t : Fin cfg0.N) : (dats m 0 c).after 0 t = blockAt m c 0 t := by dsimp only [dats]
theorem after_col (c : Dev nD) (t : Fin cfg0.N) : (dats m 0 c).after 1 t = blockAt m c 1 t := by dsimp only [dats]
theorem after_out (c : Dev nD) (t : Fin cfg0.N) : (dats m 0 c).after 2 t = outTile (blockAt m c 0 t) (blockAt m c 1 t) := by dsimp only [dats]

theorem before_row (c : Dev nD) (t : Fin cfg0.N) (d) : (dats m 0 c).before 0 t d = blockAt m c 0 t :=
  rowBlock_found m (dats m 0 c) (A_eq m c 0) (after_row m c) t d
theorem before_col (c : Dev nD) (t : Fin cfg0.N) (d) : (dats m 0 c).before 1 t d = blockAt m c 1 t :=
  colBlock_found m (dats m 0 c) (A_eq m c 1) (after_col m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the position buffers hold their blocks, so `body_runs` applies; the invariant and what the
    core owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_row, before_col]
  rw [show (dats m 0 c).Φ t.succ = (dats m 0 c).Φ t.castSucc from rfl,
    show (dats m 0 c).owesAt () t.succ = (dats m 0 c).owesAt () t.castSucc from rfl,
    after_row, after_col, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact body_at_point m c t

end Cert.KernelIdeal.Tile

end
-- ==== Proof.IdealLaunch.lean ====
/-
  The launch of the pairwise-distance kernel: from the body obligation to the run of the whole program.

  The program is one kernel region on one TensorCore. The library's launch theorem for a kernel with no semaphore of
  its own and with input windows that may read ONE array takes the decided layout of the windows, the proof data with
  its body obligation, the program's shape up to the region, and says how the buffers behind the windows' arrays, each
  whole at the full share as the launch finds them, become the proof data's arrays. Here there are two such buffers:
  the positions, which the row window and the column window both read, and the result. The positions' full share is
  the composite of its left and right halves, so the one points-to splits into the two the windows hold; the result's
  passes as it is. Nothing else is routed: the kernel has no scratch and the core no other unscoped buffer.

  The run's post reads every window's array at what the library computes from the proof data: an input's array at its
  entry contents, the result's at the entry contents overwritten by what each point wrote back. The frame is that
  post at the positions.
-/
import proofs.«151665_j41120016892412_1_alg».proof.Proof.IdealTileBody

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The positions' share dealt to the two windows that read them -/

/-- The two buffers behind the windows' arrays, whole at the full share at the entry contents, are the proof data's
    arrays at entry: the positions split into the halves the row and the column window hold, the result whole. -/
theorem arrays_dealt (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  unfold Pipeline.arrBufs
  rw [bigSep_eq_bigSepL_of_eq [main_arg0, main_v0] (by decide) (by decide)]
  unfold Dat.arrays
  rw [bigSep_W0]
  rw [(arr_whole0 0).set_eq_univ, (arr_whole0 2).set_eq_univ]
  show iprop((((c.tc : Thread nD τ).loc main_arg0) ↦{fullShare} atEntry m c main_arg0) ∗ (((c.tc : Thread nD τ).loc main_v0) ↦{fullShare} atEntry m c main_v0))
    ⊢ (iprop((((c.tc : Thread nD τ).loc main_arg0) ↦{fullShare.left} atEntry m c main_arg0)
        ∗ (((c.tc : Thread nD τ).loc main_arg0) ↦{fullShare.right} atEntry m c main_arg0)
        ∗ (((c.tc : Thread nD τ).loc main_v0) ↦{fullShare} atEntry m c main_v0)) : sProp 𝕄)
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-! ## The run -/

/-- The invariant between points is the scoped buffers that are no staging buffer, at every point. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

-- the launch theorem's implicit arguments are found by unifying its conclusion with this one, which takes unfolding
-- plain definitions in a metavariable's type
set_option backward.isDefEq.respectTransparency.types false in
/-- From any memory with zero counters, every weakly fair execution of the program terminates without a fault, and in
    every final state each window's array holds what the library computes from the proof data: the positions their
    entry contents, the result the entry contents overwritten by every point's tile. -/
theorem region_runs :
    θ_run defs (onTc (τ := τ) (main (F := F))) (s₀ m ρ)
      (fun r => ∀ c : Dev nD, ∀ w : Fin cfg0.W,
        r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := atEntry m) (hmain := main_is_region m Variants.none)
    (hsplit := arrays_dealt m)
    (X := fun _ => (BI.emp : sProp 𝕄)) (Y := fun _ => (BI.emp : sProp 𝕄))
    (Z := fun c => Pipeline.unscopedRest (Ix := Unit) (Name := ℕ) (U := UR sig nD τ) (Lvl := ℕ) spec0 c (atEntry m c))
    (hX := fun c => by
      iintro H
      isplitr; · iempintro
      iexact H)
    (hin := fun c => by
      rw [inv_eq]
      iintro ⟨-, H⟩
      iexact H)
    (hout := fun c => by
      rw [inv_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## The frame -/

/-- The positions end as they were launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (region_runs m ρ)

end Cert.KernelIdeal.Tile

end
-- ==== Proof.DistSpec.lean ====
/-
  The function both programs compute, entry by entry, on the extended reals.

  The argument is an array of positions p of shape [8, 2048, 3]: batch b, particle i, coordinate k. For a batch b
  and a pair of particles (i, j) the squared distance is the sum over the three coordinates of
  (p[b,i,k] - p[b,j,k])^2; it is raised to the floor word eps (1e-12 in f32) and its square root is the distance d.
  The result has shape [3, 8, 2048, 2048]: slab s holds d where d lies strictly between the word delta (1e-6 in f32)
  and the s-th radius (3, 5, 8), and zero elsewhere. Every literal is kept as the f32 word both programs print, so no
  literal is ever evaluated: the same word reads the same extended real on both sides.

  The one law that joins the two sides is here too: the host's sum over the coordinate axis starts from the zero word
  and adds the three squares; the kernel adds the first two squares and then the third. On the extended reals addition
  is commutative and associative with 0 neutral, at the infinities too, so the two agree with no finiteness needed.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-- The positions' shape: batch, particle, coordinate. -/
abbrev SPos : Shape := ⟨3, ![8, 2048, 3]⟩
/-- The result's shape: radius slab, batch, particle, particle. -/
abbrev SOut : Shape := ⟨4, ![3, 8, 2048, 2048]⟩

/-- The floor under the squared distance, the f32 word of 1e-12. -/
abbrev epsW : BitVec 32 := 0x2B8CBCCC#32
/-- The lower cut on the distance, the f32 word of 1e-6. -/
abbrev deltaW : BitVec 32 := 0x358637BD#32
/-- The zero word. -/
abbrev zeroW : BitVec 32 := 0x00000000#32

/-- The radius of slab `s`: the f32 words of 3, 5 and 8. -/
def radiusW : Fin 3 → BitVec 32
  | ⟨0, _⟩ => 0x40400000#32
  | ⟨1, _⟩ => 0x40A00000#32
  | ⟨2, _⟩ => 0x41000000#32

/-- One coordinate's contribution: the square of the difference of the two particles' `k`-th coordinates. -/
def coordSq (p : SPos.Idx → EReal) (b : Fin 8) (i j : Fin 2048) (k : Fin 3) : EReal :=
  (p (ix3 b i k) - p (ix3 b j k)) * (p (ix3 b i k) - p (ix3 b j k))

/-- The squared distance of particles `i` and `j` of batch `b`, the three squares added left to right. -/
def sqDist (p : SPos.Idx → EReal) (b : Fin 8) (i j : Fin 2048) : EReal :=
  coordSq p b i j 0 + coordSq p b i j 1 + coordSq p b i j 2

/-- The distance: the square root of the squared distance raised to the floor. -/
def dist (p : SPos.Idx → EReal) (b : Fin 8) (i j : Fin 2048) : EReal :=
  Ideal.sqrt (max (sqDist p b i j) (Ideal.ofBits .f32 epsW))

/-- A distance kept when it lies strictly between the lower cut and the radius word `r`, else zero: the select on the
    conjunction of the two comparisons, spelt with the operations both programs apply entry by entry. -/
def keep (r : BitVec 32) (d : EReal) : EReal :=
  Scalar.select
    (IntOp.andi (FloatOps.cmpf (F := Ideal) (φ := .f32) .olt d (Ideal.ofBits .f32 r))
      (FloatOps.cmpf (F := Ideal) (φ := .f32) .ogt d (Ideal.ofBits .f32 deltaW)))
    d (Ideal.ofBits .f32 zeroW)

/-- THE RESULT as one function of the positions: entry (s, b, i, j) is the distance of i and j in batch b, kept within
    the s-th radius. -/
def G (p : SPos.Idx → EReal) : SOut.Idx → EReal :=
  fun y => keep (radiusW (y 0)) (dist p (y 1) (y 2) (y 3))

theorem G_apply (p : SPos.Idx → EReal) (s : Fin 3) (b : Fin 8) (i j : Fin 2048) :
    G p (ix4 s b i j) = keep (radiusW s) (dist p b i j) := rfl

/-- The host's sum over the coordinate axis, from the zero word, is the kernel's left-to-right sum of the three squares. -/
theorem zero_add_sum_eq_sqDist (p : SPos.Idx → EReal) (b : Fin 8) (i j : Fin 2048) :
    Ideal.ofBits .f32 zeroW + ∑ k : Fin 3, coordSq p b i j k = sqDist p b i j := by
  rw [Ideal.ofBits_zero_f32, zero_add, Fin.sum_univ_three]
  rfl

end Cert.PairDist

end
-- ==== Proof.IdealTileValue.lean ====
/-
  The pairwise-distance kernel's result tile, read one entry at a time.

  At a grid point the body holds two [1, 512, 3] blocks of positions: the row tile's, x0, and the column tile's, x1.
  It drops the unit batch axis of each, cuts each block's three coordinate columns out as [512, 1] tiles, turns the
  column tile's three into [1, 512] rows, spreads every column and every row over a 512 x 512 tile, and then works
  entry by entry: entry (r, c) of the k-th difference tile is x0[0, r, k] - x1[0, c, k]; the three differences are
  squared and added left to right, the sum is raised to the floor word, and its square root is the distance of row
  particle r and column particle c. The tile is stored three times, each time kept only where the distance lies
  strictly between the lower cut and that store's radius (3, 5, 8) and zero elsewhere, into the three [1, 1, 512, 512]
  slabs of the [3, 1, 512, 512] result block.

  This module reads all that at an index:
  * each layout operation of the body at explicit coordinates: a unit axis dropped or added, one column cut out, a
    column turned into a row, a column or a row spread over the tile;
  * the distance tile at (r, c): the square root of the floored sum of the three squared coordinate differences;
  * each masked tile at (0, 0, r, c): that distance kept within the store's radius;
  * the result block at (s, 0, r, c): slab s is the only slab holding that index (the slabs differ in their first
    coordinate), so the block reads the s-th masked tile there.
-/
import proofs.«151665_j41120016892412_1_alg».proof.Proof.IdealTileBody
import proofs.«151665_j41120016892412_1_alg».proof.Proof.DistSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Cert.KernelIdeal.Tile
open Idealize.ShloMosaic Idealize.ShloMosaic.ValueIdx
open Cert.PairDist (keep radiusW epsW deltaW zeroW)

/-! ## The body's layout operations at explicit coordinates -/

/-- A load through the whole-block rectangle reads the block itself: the rectangle starts at zero on every axis and
    has the block's own extents. -/
theorem ld_posRect (x : Vec Ideal S1x512x3 .f32) : View.ld x posRect = x :=
  View.ld_unit_zero (funext fun a => by match a with | ⟨0, _⟩ => rfl | ⟨1, _⟩ => rfl | ⟨2, _⟩ => rfl) _ x

/-- The position block with its unit batch axis dropped reads, at (r, k), the block at (0, r, k). -/
theorem squeeze_apply (v : FVec Ideal S1x512x3 .f32) (r : Fin 512) (k : Fin 3) :
    shapeCast S512x3 v shapeCasts_S1x512x3_S512x3 (ix2 r k) = v (ix3 (0 : Fin 1) r k) :=
  shapeCast_1ab_ab_apply v _ r k

/-- The first coordinate's column: entry (r, 0) of the cut is entry (r, 0) of the [512, 3] matrix. -/
theorem col0_apply (v : FVec Ideal S512x3 .f32) (r : Fin 512) :
    extractStridedSlice S512x1 ![0, 0] v slices_S512x3_o0_0_S512x1 (ix2 r (0 : Fin 1)) = v (ix2 r (0 : Fin 3)) :=
  slice2_axis1_apply 0 v _ r 0 0 rfl

/-- The second coordinate's column: entry (r, 0) of the cut is entry (r, 1) of the matrix. -/
theorem col1_apply (v : FVec Ideal S512x3 .f32) (r : Fin 512) :
    extractStridedSlice S512x1 ![0, 1] v slices_S512x3_o0_1_S512x1 (ix2 r (0 : Fin 1)) = v (ix2 r (1 : Fin 3)) :=
  slice2_axis1_apply 1 v _ r 0 1 rfl

/-- The third coordinate's column: entry (r, 0) of the cut is entry (r, 2) of the matrix. -/
theorem col2_apply (v : FVec Ideal S512x3 .f32) (r : Fin 512) :
    extractStridedSlice S512x1 ![0, 2] v slices_S512x3_o0_2_S512x1 (ix2 r (0 : Fin 1)) = v (ix2 r (2 : Fin 3)) :=
  slice2_axis1_apply 2 v _ r 0 2 rfl

/-- A column turned into a row: entry (0, c) of the row is entry (c, 0) of the column. -/
theorem toRow_apply (v : FVec Ideal S512x1 .f32) (c : Fin 512) :
    transpose S1x512 ([1, 0] : List (Fin 2)) v transposes_S512x1_p1_0_S1x512 (ix2 (0 : Fin 1) c) = v (ix2 c (0 : Fin 1)) :=
  transpose_ix2_apply v _ 0 c

/-- A column spread over the tile: entry (r, c) is the column's r-th entry, whatever c. The column's second axis has
    extent one and reads 0; its first axis has the tile's extent and reads the tile's row. -/
theorem spreadCol_apply (v : FVec Ideal S512x1 .f32) (r c : Fin 512) :
    broadcastTo S512x512 v broadcasts_S512x1_S512x512 (ix2 r c) = v (ix2 r (0 : Fin 1)) := by
  refine broadcastTo_apply v _ (ix2 r c) (ix2 r (0 : Fin 1)) fun ax => ?_
  match ax with
  | ⟨0, _⟩ =>
    show r.val = if (512 : Nat) = 1 then 0 else r.val
    rw [if_neg (by decide)]
  | ⟨1, _⟩ => rfl

/-- A row spread over the tile: entry (r, c) is the row's c-th entry, whatever r. -/
theorem spreadRow_apply (v : FVec Ideal S1x512 .f32) (r c : Fin 512) :
    broadcastTo S512x512 v broadcasts_S1x512_S512x512 (ix2 r c) = v (ix2 (0 : Fin 1) c) :=
  broadcastTo_1b_ab_apply v _ r c

/-- A 512 x 512 tile given two leading unit axes reads, at (0, 0, r, c), the tile at (r, c): both indices stand at
    row-major position r * 512 + c. -/
theorem unsqueeze_apply (v : FVec Ideal S512x512 .f32) (r c : Fin 512) :
    shapeCast S1x1x512x512 v shapeCasts_S512x512_S1x1x512x512 (ix4 (0 : Fin 1) (0 : Fin 1) r c) = v (ix2 r c) :=
  shapeCast_apply v _ _ _ (by
    rw [Shape.rowMajor_val_four, Shape.rowMajor_val_two]
    show r.val * 512 + c.val = (((0 : Nat) * 1 + 0) * 512 + r.val) * 512 + c.val
    omega)

/-! ## Two more pointwise operations read at an index -/

/-- A square root of a tile at an index is the extended reals' square root of the entry. -/
theorem sqrt_apply (x : FVec Ideal S512x512 .f32) (i : S512x512.Idx) : sqrt x i = Ideal.sqrt (x i) := rfl

/-- A conjunction of two masks at an index is the conjunction of the two bits. -/
theorem andi_apply (x y : IVec S512x512 1) (i : S512x512.Idx) : andi x y i = IntOp.andi (x i) (y i) := rfl

/-! ## The distance tile at an index -/

/-- Entry (r, c) of the distance tile: the square root of the floored sum, left to right, of the squared differences
    of the row block's particle r and the column block's particle c in the three coordinates. -/
theorem distTile_apply (v0 v2 : Vec Ideal S1x512x3 .f32) (r c : Fin 512) :
    k0_pay3 (F := Ideal) v0 v2 (ix2 r c)
      = Ideal.sqrt (max (((v0 (ix3 0 r 0) - v2 (ix3 0 c 0)) * (v0 (ix3 0 r 0) - v2 (ix3 0 c 0))
          + (v0 (ix3 0 r 1) - v2 (ix3 0 c 1)) * (v0 (ix3 0 r 1) - v2 (ix3 0 c 1)))
          + (v0 (ix3 0 r 2) - v2 (ix3 0 c 2)) * (v0 (ix3 0 r 2) - v2 (ix3 0 c 2))) (Ideal.ofBits .f32 epsW)) := by
  unfold k0_pay3
  simp only [sqrt_apply, maximumf_apply, broadcast_apply, addf_apply, mulf_apply, subf_apply,
    spreadCol_apply, spreadRow_apply, toRow_apply, col0_apply, col1_apply, col2_apply, squeeze_apply]
  rfl

/-! ## The three masked tiles at an index

Each store's payload is the distance tile d, kept where d lies strictly below the store's radius and strictly above the
lower cut, zero elsewhere, with two unit axes put in front. At (0, 0, r, c) the unit axes drop out and the select, the
conjunction, the two comparisons and the spread scalars are read entry by entry: what is left is the specification's
"keep" of d at (r, c), at that store's radius word. -/

/-- The first store's payload, radius 3, computed from the position blocks. -/
theorem keep3_apply (v0 v2 : Vec Ideal S1x512x3 .f32) (r c : Fin 512) :
    k0_pay4 (F := Ideal) v0 v2 (ix4 (0 : Fin 1) (0 : Fin 1) r c)
      = keep (radiusW 0) (k0_pay3 (F := Ideal) v0 v2 (ix2 r c)) := by
  unfold k0_pay4
  rw [unsqueeze_apply]
  rfl

/-- The second store's payload, radius 5: the radius arrives as a tile holding the word of 5 at every entry. -/
theorem keep5_apply (d : FVec Ideal S512x512 .f32) (r c : Fin 512) :
    k0_pay1 (F := Ideal) d (k0_pay5 (F := Ideal)) (ix4 (0 : Fin 1) (0 : Fin 1) r c)
      = keep (radiusW 1) (d (ix2 r c)) := by
  unfold k0_pay1
  rw [unsqueeze_apply]
  rfl

/-- The third store's payload, radius 8. -/
theorem keep8_apply (d : FVec Ideal S512x512 .f32) (r c : Fin 512) :
    k0_pay2 (F := Ideal) d (ix4 (0 : Fin 1) (0 : Fin 1) r c)
      = keep (radiusW 2) (d (ix2 r c)) := by
  unfold k0_pay2
  rw [unsqueeze_apply]
  rfl

/-! ## The result block at an index

Slab s is the rectangle of the block whose first coordinate is s and whose other three run over everything. So the
index (s, 0, r, c) is slab s's own index (0, 0, r, c) placed in the block, and it lies in no other slab: membership in
a slab pins the first coordinate. The block's contents are the payload of the first listed slab holding the index; the
list is slab 2, slab 1, slab 0. -/

/-- (0, 0, r, c) of slab 0 sits at (0, 0, r, c) of the block, -/
theorem slab0_emb (hs : 0 < 3) (r c : Fin 512) :
    slab0.emb (ix4 (0 : Fin 1) (0 : Fin 1) r c) = (ix4 (⟨0, hs⟩ : Fin 3) (0 : Fin 1) r c : S3x1x512x512.Idx) := by
  funext a
  refine Fin.ext ?_
  match a with
  | ⟨0, _⟩ => rfl
  | ⟨1, _⟩ => rfl
  | ⟨2, _⟩ => show 0 + 1 * r.val = r.val; omega
  | ⟨3, _⟩ => show 0 + 1 * c.val = c.val; omega

/-- of slab 1 at (1, 0, r, c), -/
theorem slab1_emb (hs : 1 < 3) (r c : Fin 512) :
    slab1.emb (ix4 (0 : Fin 1) (0 : Fin 1) r c) = (ix4 (⟨1, hs⟩ : Fin 3) (0 : Fin 1) r c : S3x1x512x512.Idx) := by
  funext a
  refine Fin.ext ?_
  match a with
  | ⟨0, _⟩ => rfl
  | ⟨1, _⟩ => rfl
  | ⟨2, _⟩ => show 0 + 1 * r.val = r.val; omega
  | ⟨3, _⟩ => show 0 + 1 * c.val = c.val; omega

/-- and of slab 2 at (2, 0, r, c). -/
theorem slab2_emb (hs : 2 < 3) (r c : Fin 512) :
    slab2.emb (ix4 (0 : Fin 1) (0 : Fin 1) r c) = (ix4 (⟨2, hs⟩ : Fin 3) (0 : Fin 1) r c : S3x1x512x512.Idx) := by
  funext a
  refine Fin.ext ?_
  match a with
  | ⟨0, _⟩ => rfl
  | ⟨1, _⟩ => rfl
  | ⟨2, _⟩ => show 0 + 1 * r.val = r.val; omega
  | ⟨3, _⟩ => show 0 + 1 * c.val = c.val; omega

/-- An index whose first coordinate is below 2 is not in slab 2, whose first coordinates start at 2. -/
theorem not_mem_slab2 (s : Fin 3) (h : s.val < 2) (r c : Fin 512) :
    (ix4 s (0 : Fin 1) r c : S3x1x512x512.Idx) ∉ slab2.set := fun hm => by
  have h2 : (2 : Nat) ≤ s.val := (Rect.mem_set_unit.mp hm 0).1
  omega

/-- An index whose first coordinate is below 1 is not in slab 1, whose first coordinates start at 1. -/
theorem not_mem_slab1 (s : Fin 3) (h : s.val < 1) (r c : Fin 512) :
    (ix4 s (0 : Fin 1) r c : S3x1x512x512.Idx) ∉ slab1.set := fun hm => by
  have h1 : (1 : Nat) ≤ s.val := (Rect.mem_set_unit.mp hm 0).1
  omega

/-- Off its first listed slab, a list of stores reads what the rest of the list left. -/
theorem canon_skip (R : Rect S3x1x512x512) (w : R.shape.Idx → Elt Ideal .f32)
    (L : List (View.Piece (Elt Ideal) S3x1x512x512 .f32)) (y : S3x1x512x512.Idx) (h : y ∉ R.set) :
    View.canon (⟨R, w⟩ :: L) y = View.canon L y :=
  View.canon_cons_of_not_mem ⟨R, w⟩ L h

/-- THE RESULT TILE AT AN INDEX: entry (s, 0, r, c) of the block the body leaves is the distance of the row block's
    particle r and the column block's particle c, kept within the s-th radius. -/
theorem outTile_apply (x0 x1 : Vec Ideal Cert.KernelIdeal.S1x512x3 .f32) (s : Fin 3) (r c : Fin 512) :
    Cert.KernelIdeal.Tile.outTile (F := Ideal) x0 x1 (ix4 s 0 r c)
      = Cert.PairDist.keep (Cert.PairDist.radiusW s)
          (Ideal.sqrt (max (((x0 (ix3 0 r 0) - x1 (ix3 0 c 0)) * (x0 (ix3 0 r 0) - x1 (ix3 0 c 0))
              + (x0 (ix3 0 r 1) - x1 (ix3 0 c 1)) * (x0 (ix3 0 r 1) - x1 (ix3 0 c 1)))
              + (x0 (ix3 0 r 2) - x1 (ix3 0 c 2)) * (x0 (ix3 0 r 2) - x1 (ix3 0 c 2))) (Ideal.ofBits .f32 Cert.PairDist.epsW))) := by
  rw [← distTile_apply x0 x1 r c]
  unfold outTile
  rw [ld_posRect, ld_posRect]
  match s with
  | ⟨0, hs⟩ =>
    rw [canon_skip slab2 _ _ _ (not_mem_slab2 ⟨0, hs⟩ Nat.zero_lt_two r c),
      canon_skip slab1 _ _ _ (not_mem_slab1 ⟨0, hs⟩ Nat.zero_lt_one r c),
      ← slab0_emb hs r c, View.canon_cons_emb]
    exact keep3_apply x0 x1 r c
  | ⟨1, hs⟩ =>
    rw [canon_skip slab2 _ _ _ (not_mem_slab2 ⟨1, hs⟩ Nat.one_lt_two r c),
      ← slab1_emb hs r c, View.canon_cons_emb]
    exact keep5_apply _ r c
  | ⟨2, hs⟩ =>
    rw [← slab2_emb hs r c, View.canon_cons_emb]
    exact keep8_apply _ r c

end Cert.KernelIdeal.TileValue

end
-- ==== Proof.IdealArray.lean ====
/-
  From the tiles to the whole result.

  The kernel's grid has one point for each batch b, row tile i and column tile j. The point's result block has block
  index (0, b, i, j) in blocks of [3, 1, 512, 512]: all three radius slabs of batch b, rows 512·i to 512·i + 511,
  columns 512·j to 512·j + 511. Its two position blocks have block indices (b, i, 0) and (b, j, 0) in blocks of
  [1, 512, 3]: the rows' and the columns' particles of batch b, all three coordinates. These relations between the
  printed index maps are decided once over the 128 points.

  So the tile a point leaves is exactly its block of the one whole-array function G of the positions: entry
  (s, 0, r, q) of the tile is the masked distance of particles 512·i + r and 512·j + q of batch b, which is entry
  (s, b, 512·i + r, 512·j + q) of G. A block's coordinate on an axis is always block index times block size plus the
  coordinate inside the block. Every point writes its block back, and the blocks fill the result: the index
  (s, b, x, y) lies in the block of the point with batch b, row tile x / 512 and column tile y / 512. Hence the result
  array after the run is G of the positions as launched.
-/
import proofs.«151665_j41120016892412_1_alg».proof.Proof.IdealLaunch
import proofs.«151665_j41120016892412_1_alg».proof.Proof.IdealTileValue
import proofs.«151665_j41120016892412_1_alg».proof.Proof.DistSpec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Tile Cert.KernelIdeal.TileValue Cert.PairDist
open Idealize.ShloMosaic Idealize.ShloMosaic.TcCoe Idealize.ShloMosaic.ValueIdx Idealize.SL.Sem
open Idealize.ShloMosaic.Pipeline (Dat)

/-! ## The block index maps, decided over the grid -/

/-- At every grid point the result's block index is (0, b, i, j), the row tile's is (b, i, 0) and the column tile's
    (b, j, 0), with b below 8 and i, j below 4. -/
theorem block_indices : ∀ t : Fin cfg0.N,
    win0_2.index t (0 : Fin 4) = 0
    ∧ win0_0.index t (0 : Fin 3) = win0_2.index t (1 : Fin 4)
    ∧ win0_0.index t (1 : Fin 3) = win0_2.index t (2 : Fin 4)
    ∧ win0_0.index t (2 : Fin 3) = 0
    ∧ win0_1.index t (0 : Fin 3) = win0_2.index t (1 : Fin 4)
    ∧ win0_1.index t (1 : Fin 3) = win0_2.index t (3 : Fin 4)
    ∧ win0_1.index t (2 : Fin 3) = 0
    ∧ win0_2.index t (1 : Fin 4) ≤ 7 ∧ win0_2.index t (2 : Fin 4) ≤ 3 ∧ win0_2.index t (3 : Fin 4) ≤ 3 :=
  (by decide +kernel : ∀ t : Fin grid0.N, _)

/-- Every (b, i, j) is some grid point's block index. -/
theorem block_onto : ∀ (q1 : Fin 8) (q2 : Fin 4) (q3 : Fin 4), ∃ t : Fin cfg0.N, win0_2.index t = ![0, q1.val, q2.val, q3.val] :=
  (by decide +kernel : ∀ (q1 : Fin 8) (q2 : Fin 4) (q3 : Fin 4), ∃ t : Fin grid0.N, win0_2.index t = ![0, q1.val, q2.val, q3.val])

/-! ## One tile is one block of the specification -/

/-- If the two position blocks are rows 512·ti … and 512·tj … of batch b of positions `P`, the tile the body leaves is
    the block of `G P` at batch b, row tile ti, column tile tj: entry (s, 0, r, q) of the tile is entry
    (s, b, 512·ti + r, 512·tj + q) of `G P`. -/
theorem tile_eq_block (P : SPos.Idx → EReal) (x0 x1 : Vec Ideal S1x512x3 .f32) (b : Fin 8) (ti tj : Nat) (hi : ti ≤ 3) (hj : tj ≤ 3)
    (h0 : ∀ (r : Fin 512) (k : Fin 3), x0 (ix3 (0 : Fin 1) r k) = P (ix3 b (⟨ti * 512 + r.val, by have := r.isLt; omega⟩ : Fin 2048) k))
    (h1 : ∀ (q : Fin 512) (k : Fin 3), x1 (ix3 (0 : Fin 1) q k) = P (ix3 b (⟨tj * 512 + q.val, by have := q.isLt; omega⟩ : Fin 2048) k))
    (s : Fin 3) (r q : Fin 512) :
    outTile (F := Ideal) x0 x1 (ix4 s (0 : Fin 1) r q)
      = G P (ix4 s b (⟨ti * 512 + r.val, by have := r.isLt; omega⟩ : Fin 2048) (⟨tj * 512 + q.val, by have := q.isLt; omega⟩ : Fin 2048)) := by
  rw [outTile_apply, G_apply]
  unfold Cert.PairDist.dist Cert.PairDist.sqDist Cert.PairDist.coordSq
  rw [h0 r 0, h0 r 1, h0 r 2, h1 q 0, h1 q 1, h1 q 2]

variable (m : (ℓ : Loc nD τ sig) → Buf (Elt Ideal) ℓ) (ρ : Dev nD → PrngReg)

/-! ## What each point writes back -/

/-- WHAT POINT `t` WRITES BACK is block `t` of `G` of the positions as the region finds them. -/
theorem flushed_eq (c : Dev nD) (t : Fin cfg0.N) :
    (dats m 0 c).flushed 2 t = ((cfg0.win 2).blk t).view.read (Elt Ideal) (G (atEntry m c main_arg0)) := by
  show (cfg0.win 2).cut (grid0.coords t) ((dats m 0 c).after 2 t) = _
  rw [after_out]
  obtain ⟨e2, e0b, e0r, e0z, e1b, e1c, e1z, hb, hr, hc⟩ := block_indices t
  refine funext fun (j : S3x1x512x512.Idx) => ?_
  show outTile (F := Ideal) (blockAt m c 0 t) (blockAt m c 1 t) j = G (atEntry m c main_arg0) (((cfg0.win 2).blk t).view.emb j)
  have hj1 : (j 1).val < 1 := (j 1).isLt
  have hj2 : (j 2).val < 512 := (j 2).isLt
  have hj3 : (j 3).val < 512 := (j 3).isLt
  have hjeq : j = ix4 (j 0) (0 : Fin 1) (j 2) (j 3) := by
    funext a
    match a with
    | ⟨0, _⟩ => rfl
    | ⟨1, _⟩ => exact Fin.ext (by show (j 1).val = 0; omega)
    | ⟨2, _⟩ => rfl
    | ⟨3, _⟩ => rfl
  have hemb : ((cfg0.win 2).blk t).view.emb j
      = ix4 (j 0) (⟨win0_2.index t (1 : Fin 4), by omega⟩ : Fin 8)
          (⟨win0_2.index t (2 : Fin 4) * 512 + (j 2).val, by omega⟩ : Fin 2048)
          (⟨win0_2.index t (3 : Fin 4) * 512 + (j 3).val, by omega⟩ : Fin 2048) := by
    funext a; apply Fin.ext
    match a with
    | ⟨0, _⟩ => show win0_2.index t (0 : Fin 4) * 3 + 1 * (j 0).val = (j 0).val; omega
    | ⟨1, _⟩ => show win0_2.index t (1 : Fin 4) * 1 + 1 * (j 1).val = win0_2.index t (1 : Fin 4); omega
    | ⟨2, _⟩ => show win0_2.index t (2 : Fin 4) * 512 + 1 * (j 2).val = win0_2.index t (2 : Fin 4) * 512 + (j 2).val; omega
    | ⟨3, _⟩ => show win0_2.index t (3 : Fin 4) * 512 + 1 * (j 3).val = win0_2.index t (3 : Fin 4) * 512 + (j 3).val; omega
  rw [hemb]
  refine (congrArg (outTile (F := Ideal) (blockAt m c 0 t) (blockAt m c 1 t)) hjeq).trans ?_
  refine tile_eq_block (atEntry m c main_arg0) (blockAt m c 0 t) (blockAt m c 1 t) ⟨win0_2.index t (1 : Fin 4), by omega⟩
    (win0_2.index t (2 : Fin 4)) (win0_2.index t (3 : Fin 4)) hr hc ?_ ?_ (j 0) (j 2) (j 3)
  · intro r k
    show atEntry m c main_arg0 (((cfg0.win 0).blk t).view.emb (ix3 (0 : Fin 1) r k)) = _
    refine congrArg _ ?_
    funext a; apply Fin.ext
    match a with
    | ⟨0, _⟩ => show win0_0.index t (0 : Fin 3) * 1 + 1 * 0 = win0_2.index t (1 : Fin 4); omega
    | ⟨1, _⟩ => show win0_0.index t (1 : Fin 3) * 512 + 1 * r.val = win0_2.index t (2 : Fin 4) * 512 + r.val; omega
    | ⟨2, _⟩ => show win0_0.index t (2 : Fin 3) * 3 + 1 * k.val = k.val; omega
  · intro q k
    show atEntry m c main_arg0 (((cfg0.win 1).blk t).view.emb (ix3 (0 : Fin 1) q k)) = _
    refine congrArg _ ?_
    funext a; apply Fin.ext
    match a with
    | ⟨0, _⟩ => show win0_1.index t (0 : Fin 3) * 1 + 1 * 0 = win0_2.index t (1 : Fin 4); omega
    | ⟨1, _⟩ => show win0_1.index t (1 : Fin 3) * 512 + 1 * q.val = win0_2.index t (3 : Fin 4) * 512 + q.val; omega
    | ⟨2, _⟩ => show win0_1.index t (2 : Fin 3) * 3 + 1 * k.val = k.val; omega

/-! ## The blocks fill the result -/

/-- An index of the result is in point `t`'s block iff each coordinate is in the block's range on its axis. -/
theorem mem_block (t : Fin cfg0.N) (i : S3x8x2048x2048.Idx) :
    i ∈ ((cfg0.win 2).blk t).view.set ↔ ∀ a : Fin 4, win0_2.index t a * S3x1x512x512.size a ≤ (i a).val ∧ (i a).val < win0_2.index t a * S3x1x512x512.size a + S3x1x512x512.size a := by
  show i ∈ ((View.whole main_v0).slice (win0_2.rect t)).set ↔ _
  rw [View.set_slice_whole, Rect.mem_set_unit]
  exact Iff.rfl

/-- Every index of the result lies in the block of the point with its batch, its row tile and its column tile. -/
theorem blocks_cover (i : S3x8x2048x2048.Idx) :
    ∃ t : Fin cfg0.N, (cfg0.win 2).flush t = true ∧ i ∈ ((cfg0.win 2).blk t).view.set := by
  have hi0 : (i 0).val < 3 := (i 0).isLt
  have hi1 : (i 1).val < 8 := (i 1).isLt
  have hi2 : (i 2).val < 2048 := (i 2).isLt
  have hi3 : (i 3).val < 2048 := (i 3).isLt
  obtain ⟨t, ht⟩ := block_onto ⟨(i 1).val, hi1⟩ ⟨(i 2).val / 512, by omega⟩ ⟨(i 3).val / 512, by omega⟩
  have q0 : win0_2.index t (0 : Fin 4) = 0 := congrFun ht 0
  have q1 : win0_2.index t (1 : Fin 4) = (i 1).val := congrFun ht 1
  have q2 : win0_2.index t (2 : Fin 4) = (i 2).val / 512 := congrFun ht 2
  have q3 : win0_2.index t (3 : Fin 4) = (i 3).val / 512 := congrFun ht 3
  refine ⟨t, flush0_2 t, ?_⟩
  rw [mem_block]
  intro a
  match a with
  | ⟨0, _⟩ => show win0_2.index t (0 : Fin 4) * 3 ≤ (i 0).val ∧ (i 0).val < win0_2.index t (0 : Fin 4) * 3 + 3; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-! ## The result after the run -/

/-- THE RESULT ARRAY after the run is `G` of the positions as launched. -/
theorem result_eq_G (c : Dev nD) : (dats m 0 c).arrAt 2 cfg0.N = G (m ((c.tc : Thread nD τ).loc main_arg0)) :=
  (dats m 0 c).arrAt_eq_of_cover 2 (G (atEntry m c main_arg0)) (fun t _ => flushed_eq m c t) blocks_cover

/-- The run, read: the result holds `G` of the positions and the positions end as they were. -/
theorem run_value :
    θ_run defs (onTc (τ := τ) (main (F := Ideal))) ⟨m, fun _ => 0, ρ⟩ (fun r => ∀ c : Dev nD,
      r.2.mem ((c.tc : Thread nD τ).loc main_v0) = G (m ((c.tc : Thread nD τ).loc main_arg0))
      ∧ r.2.mem ((c.tc : Thread nD τ).loc main_arg0) = m ((c.tc : Thread nD τ).loc main_arg0)) :=
  (θ_run defs _ _).mono (fun _ h c => ⟨((h c) 2).trans (result_eq_G m c),
      ((h c) 0).trans (((dats m 0 c).arrAt_in 0 rfl _).trans (A_eq m c 0))⟩) (region_runs m ρ)

end Cert.KernelIdeal.Whole

end
-- ==== Proof.RefDist.lean ====
/-
  The reference program computes the specification.

  The reference builds its result in four layers. First it lays the positions p out twice over a
  [8, 2048, 2048, 3] grid, once reading particle i and once reading particle j of batch b, subtracts, squares, and
  adds the three squares up along the coordinate axis starting from the zero word: that is the squared distance of
  i and j. Second it raises the squared distance to the floor word and takes the square root: the distance d. Third,
  once for each of the three radii, it keeps d where d lies strictly between the lower cut and the radius, and puts
  the zero word elsewhere. Last it gives each of the three masked arrays a leading axis of extent one and joins them
  along that axis.

  So entry (s, b, i, j) of the result is entry (0, b, i, j) of the s-th piece, which is entry (b, i, j) of the s-th
  masked array, which is the distance of i and j in batch b kept within the s-th radius: the specification G at
  (s, b, i, j). Everything below is read at ONE index; no two whole arrays are ever compared.
-/
import proofs.«151665_j41120016892412_1_alg».proof.Proof.Gen.ReferenceIdeal.Read
import proofs.«151665_j41120016892412_1_alg».proof.Proof.DistSpec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefDist

open Cert.ReferenceIdeal Cert.ReferenceIdeal.Gen Cert.ReferenceIdeal.Read Cert.PairDist
open Idealize.ShloMosaic Idealize.ShloMosaic.ValueIdx Idealize.ShloMosaic.TcCoe Idealize.SL.Sem Idealize.ShloMosaic.StableHlo

/-- The positions, as the reference's argument: one extended real per (batch, particle, coordinate). -/
abbrev Pos : Type := (⟨S8x2048x3, .f32⟩ : BufTy).Contents (Elt Ideal)

/-! ## Where each layout step reads

The two-step broadcast of the positions over the pair grid reads, at (b, i, j, k), the position of particle i
(first copy) or of particle j (second copy) at coordinate k; the sum over the coordinate axis at (b, i, j) runs over
the grid points (b, i, j, k); giving a masked array a leading unit axis reads it at the remaining three coordinates. -/

/-- The first copy of the positions over the pair grid reads particle i. -/
theorem idx_first (b : Fin 8) (i j : Fin 2048) (k : Fin 3) :
    idx_main_v0 (idx_main_v2 (ix4 b i j k)) = ix3 b i k :=
  funext fun a => Fin.ext (by match a with | ⟨0, _⟩ => rfl | ⟨1, _⟩ => rfl | ⟨2, _⟩ => rfl)

/-- The second copy of the positions over the pair grid reads particle j. -/
theorem idx_second (b : Fin 8) (i j : Fin 2048) (k : Fin 3) :
    idx_main_v1 (idx_main_v3 (ix4 b i j k)) = ix3 b j k :=
  funext fun a => Fin.ext (by match a with | ⟨0, _⟩ => rfl | ⟨1, _⟩ => rfl | ⟨2, _⟩ => rfl)

/-- The sum over the coordinate axis at (b, i, j) ranges over the grid points (b, i, j, k). -/
theorem idx_sum (b : Fin 8) (i j : Fin 2048) (k : Fin 3) :
    idx_main_v6 (ix3 b i j) k = ix4 b i j k :=
  funext fun a => Fin.ext (by match a with | ⟨0, _⟩ => rfl | ⟨1, _⟩ => rfl | ⟨2, _⟩ => rfl | ⟨3, _⟩ => rfl)

/-- A masked array under a leading unit axis is read at its own three coordinates (all three pieces alike). -/
theorem idx_unit (z : Fin 1) (b : Fin 8) (i j : Fin 2048) :
    idx_main_v28 (ix4 z b i j) = ix3 b i j :=
  funext fun a => Fin.ext (by match a with | ⟨0, _⟩ => rfl | ⟨1, _⟩ => rfl | ⟨2, _⟩ => rfl)

/-! ## The distance -/

/-- One square on the pair grid: at (b, i, j, k) the squared difference of the k-th coordinates of i and j. -/
theorem square_apply (p : Pos) (b : Fin 8) (i j : Fin 2048) (k : Fin 3) :
    val_main_v5 (F := Ideal) p (ix4 b i j k) = coordSq p b i j k := by
  rw [val_main_v5_apply, val_main_v4_apply, val_main_v2_apply, val_main_v3_apply, val_main_v0_apply,
    val_main_v1_apply, idx_first, idx_second]
  rfl

/-- The sum of the three squares from the zero word is the squared distance. -/
theorem sqDist_apply (p : Pos) (b : Fin 8) (i j : Fin 2048) :
    val_main_v6 (F := Ideal) p (ix3 b i j) = sqDist p b i j := by
  rw [val_main_v6_apply, val_main_cst_apply, ← zero_add_sum_eq_sqDist]
  refine congrArg (_ + ·) (Finset.sum_congr rfl fun k _ => ?_)
  rw [idx_sum, square_apply]

/-- The square root of the squared distance raised to the floor word is the distance. -/
theorem dist_apply (p : Pos) (b : Fin 8) (i j : Fin 2048) :
    val_main_v9 (F := Ideal) p (ix3 b i j) = dist p b i j := by
  rw [val_main_v9_apply, val_main_v8_apply, sqDist_apply, val_main_v7_apply, val_main_cst_0_apply]
  rfl

/-! ## The three masked arrays

Each keeps the distance where it lies strictly between the lower cut and that array's radius, and puts the zero word
elsewhere. The radius, the lower cut and the zero are scalar words spread over the whole [8, 2048, 2048] grid, so at
every index they read the word itself; the zero passes through an identity conversion first, which changes nothing. -/

/-- The first masked array: the distance kept within the radius word of 3. -/
theorem masked0_apply (p : Pos) (b : Fin 8) (i j : Fin 2048) :
    val_main_v15 (F := Ideal) p (ix3 b i j) = keep 0x40400000#32 (dist p b i j) := by
  rw [val_main_v15_apply, val_main_v14_apply, val_main_v11_apply, val_main_v13_apply, dist_apply,
    val_main_v10_apply, val_main_cst_1_apply, val_main_v12_apply, val_main_cst_2_apply,
    val_main_call0_v1_apply, val_main_call0_v0_apply, val_main_cst_3_apply]
  rfl

/-- The second masked array: the distance kept within the radius word of 5. -/
theorem masked1_apply (p : Pos) (b : Fin 8) (i j : Fin 2048) :
    val_main_v21 (F := Ideal) p (ix3 b i j) = keep 0x40A00000#32 (dist p b i j) := by
  rw [val_main_v21_apply, val_main_v20_apply, val_main_v17_apply, val_main_v19_apply, dist_apply,
    val_main_v16_apply, val_main_cst_4_apply, val_main_v18_apply, val_main_cst_5_apply,
    val_main_call1_v1_apply, val_main_call1_v0_apply, val_main_cst_6_apply]
  rfl

/-- The third masked array: the distance kept within the radius word of 8. -/
theorem masked2_apply (p : Pos) (b : Fin 8) (i j : Fin 2048) :
    val_main_v27 (F := Ideal) p (ix3 b i j) = keep 0x41000000#32 (dist p b i j) := by
  rw [val_main_v27_apply, val_main_v26_apply, val_main_v23_apply, val_main_v25_apply, dist_apply,
    val_main_v22_apply, val_main_cst_7_apply, val_main_v24_apply, val_main_cst_8_apply,
    val_main_call2_v1_apply, val_main_call2_v0_apply, val_main_cst_9_apply]
  rfl

/-! ## The three pieces: each masked array under a leading axis of extent one -/

theorem piece0_apply (p : Pos) (z : Fin 1) (b : Fin 8) (i j : Fin 2048) :
    val_main_v28 (F := Ideal) p (ix4 z b i j) = keep 0x40400000#32 (dist p b i j) := by
  rw [val_main_v28_apply, idx_unit, masked0_apply]

theorem piece1_apply (p : Pos) (z : Fin 1) (b : Fin 8) (i j : Fin 2048) :
    val_main_v29 (F := Ideal) p (ix4 z b i j) = keep 0x40A00000#32 (dist p b i j) := by
  rw [val_main_v29_apply, show idx_main_v29 (ix4 z b i j) = ix3 b i j from idx_unit z b i j, masked1_apply]

theorem piece2_apply (p : Pos) (z : Fin 1) (b : Fin 8) (i j : Fin 2048) :
    val_main_v30 (F := Ideal) p (ix4 z b i j) = keep 0x41000000#32 (dist p b i j) := by
  rw [val_main_v30_apply, show idx_main_v30 (ix4 z b i j) = ix3 b i j from idx_unit z b i j, masked2_apply]

/-! ## The join

Three pieces of extent one along the leading axis, joined along it: the leading coordinate s of an index names the
piece, and the piece is read at the same batch and particle coordinates with 0 in front. Stated over three arbitrary
pieces, so that the pieces themselves are never opened here. -/

theorem join_apply {α : Type} (x0 x1 x2 : S1x8x2048x2048.Idx → α)
    (h : Shape.Concatenates [S1x8x2048x2048, S1x8x2048x2048, S1x8x2048x2048] S3x8x2048x2048 0)
    (s : Fin 3) (b : Fin 8) (i j : Fin 2048) :
    concatenate S3x8x2048x2048 0 [⟨S1x8x2048x2048, x0⟩, ⟨S1x8x2048x2048, x1⟩, ⟨S1x8x2048x2048, x2⟩] h (ix4 s b i j)
      = (match s with | ⟨0, _⟩ => x0 | ⟨1, _⟩ => x1 | ⟨2, _⟩ => x2) (ix4 (0 : Fin 1) b i j) :=
  concatenate_ofFn_unit_apply (t := S3x8x2048x2048) (s₁ := S1x8x2048x2048) 0
    (fun n : Fin 3 => match n with | ⟨0, _⟩ => x0 | ⟨1, _⟩ => x1 | ⟨2, _⟩ => x2) h rfl rfl (ix4 s b i j) s rfl
    (ix4 (0 : Fin 1) b i j)
    (fun a ha => by
      match a with
      | ⟨0, _⟩ => exact absurd rfl ha
      | ⟨1, _⟩ => rfl
      | ⟨2, _⟩ => rfl
      | ⟨3, _⟩ => rfl)

/-! ## The result -/

/-- The reference's last value, as a function of the positions, is the specification: index by index, the leading
    coordinate picks the piece and the piece is the distance kept within that coordinate's radius. -/
theorem val_eq_G (p : Pos) : (val_main_v31 (F := Ideal) p : SOut.Idx → EReal) = G p := by
  funext y
  obtain ⟨s, b, i, j, rfl⟩ : ∃ (s : Fin 3) (b : Fin 8) (i j : Fin 2048), y = ix4 s b i j :=
    ⟨y 0, y 1, y 2, y 3, eq_ix4 y⟩
  rw [G_apply]
  unfold val_main_v31
  rw [join_apply]
  match s with
  | ⟨0, _⟩ => exact piece0_apply p 0 b i j
  | ⟨1, _⟩ => exact piece1_apply p 0 b i j
  | ⟨2, _⟩ => exact piece2_apply p 0 b i j

/-- THE REFERENCE IS G: the term the reference's run leaves in its result buffer is the specification of the
    positions it was launched with. -/
theorem res_eq_G (m : (ℓ : Loc Cert.ReferenceIdeal.nD Cert.ReferenceIdeal.τ Cert.ReferenceIdeal.sig) → Buf (Elt Ideal) ℓ) (c : Dev Cert.ReferenceIdeal.nD) :
    (Cert.ReferenceIdeal.Value.res_main_v31 (F := Ideal) m c : Cert.PairDist.SOut.Idx → EReal)
      = Cert.PairDist.G (m ((c.tc : Thread Cert.ReferenceIdeal.nD Cert.ReferenceIdeal.τ).loc Cert.ReferenceIdeal.main_arg0) : Cert.PairDist.SPos.Idx → EReal) :=
  (val_main_v31_eq (F := Ideal) m c).trans (val_eq_G _)

end Cert.ReferenceIdeal.RefDist

end
-- ==== Proof.lean ====
/-
  Masked pairwise distances: the kernel against its reference, over the extended reals.

  For positions p of shape [8, 2048, 3] (batch, particle, coordinate) both programs return an array of shape
  [3, 8, 2048, 2048]. Entry (s, b, i, j) is the distance d of particles i and j of batch b,
  d = sqrt (max (sum over the three coordinates k of (p[b,i,k] - p[b,j,k])^2, eps)), where d lies strictly between the
  lower cut delta and the s-th of the radii 3, 5, 8, and zero elsewhere (eps, delta the f32 words of 1e-12, 1e-6).

  The reference lays the positions out over the [8, 2048, 2048, 3] grid of pairs and coordinates, sums the squares
  along the coordinate axis from zero, and masks three times. The kernel works tile by tile: for a batch and a pair of
  512-particle tiles it takes each tile's three coordinate columns, spreads the row tile's down and the column
  tile's across a 512 x 512 tile, adds the first two squares and then the third, and stores the masked tile into
  the three radius slabs of its result block. The literals are the same f32 words on both sides and are never
  evaluated. The only law between the two sides is that 0 + (a + b + c) is (a + b) + c on the extended reals, which
  holds at the infinities too, so the precondition is never opened.

  The proof, module by module:
  * DistSpec: the function G above, entry by entry, and that law.
  * RefDist: the reference's result term is G of its argument (through the reference's run read one operation at a
    time, at one index).
  * IdealTileBody / BitsTileBody: one grid point of the kernel, at the ideal and at the word-level instance (one text,
    generic in the instance, laid out under both programs' names): the tile the body leaves as a function of the two
    position blocks, the body's run, the pipeline's proof data and the body obligation. Both position windows read
    ONE array, so each holds half of its share.
  * IdealLaunch / BitsLaunch: the whole program's run from the body obligation, by the library's launch of a kernel
    whose input windows share an array; the frame is its post at the positions.
  * IdealTileValue: the tile at an index is the masked distance of the two blocks' particles.
  * IdealArray: each tile is its block of G, the blocks fill the result, so the result after the run is G.
  The kernel was rewritten nowhere by the ideal pass, so there is nothing to preserve.
-/
import proofs.«151665_j41120016892412_1_alg».proof.Defs
import proofs.«151665_j41120016892412_1_alg».proof.Proof.Gen.Kernel
import proofs.«151665_j41120016892412_1_alg».proof.Proof.Gen.KernelIdeal
import proofs.«151665_j41120016892412_1_alg».proof.Proof.Gen.ReferenceIdeal
import proofs.«151665_j41120016892412_1_alg».proof.Proof.Gen.Pre_finite_inputs
import proofs.«151665_j41120016892412_1_alg».proof.Proof.Gen.ReferenceIdeal.Run
import proofs.«151665_j41120016892412_1_alg».proof.Proof.Gen.ReferenceIdeal.Read
import proofs.«151665_j41120016892412_1_alg».proof.Proof.BitsLaunch
import proofs.«151665_j41120016892412_1_alg».proof.Proof.IdealArray
import proofs.«151665_j41120016892412_1_alg».proof.Proof.RefDist

noncomputable section

namespace Cert.Proof

open Idealize.ShloMosaic Idealize.ShloMosaic.TcCoe Idealize.SL.Sem

/-- The word-level kernel runs and leaves the positions as they were. -/
theorem frame_kernel : Cert.frame_Kernel := fun m ρ _ => Cert.Kernel.Tile.frame m ρ

/-- So does the kernel read over the extended reals. -/
theorem frame_kernelIdeal : Cert.frame_KernelIdeal := fun m ρ _ => Cert.KernelIdeal.Tile.frame m ρ

/-- The reference runs and leaves the positions as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the positions both programs end with the result at G of the positions. -/
theorem algebraic : Cert.algebraic_KernelIdeal_ReferenceIdeal := by
  intro m ρ m' ρ' _ hagree
  refine ⟨fun c => Cert.PairDist.G (m ((c.tc : Thread Cert.KernelIdeal.nD Cert.KernelIdeal.τ).loc Cert.KernelIdeal.main_arg0)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefDist.res_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
